-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S320x784 : Shape := ⟨2, ![320, 784]⟩
abbrev S320 : Shape := ⟨1, ![320]⟩
abbrev S10x320 : Shape := ⟨2, ![10, 320]⟩
abbrev S10 : Shape := ⟨1, ![10]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S320x784 : S_.BroadcastsInDim S320x784 (![] : Fin 0 → Fin S320x784.rank)
  reducesTo_S320x784_S_d0_1 : S320x784.ReducesTo [0, 1] S_
  bcast_S_S320 : S_.BroadcastsInDim S320 (![] : Fin 0 → Fin S320.rank)
  reducesTo_S320_S_d0 : S320.ReducesTo [0] S_
  bcast_S_S10x320 : S_.BroadcastsInDim S10x320 (![] : Fin 0 → Fin S10x320.rank)
  reducesTo_S10x320_S_d0_1 : S10x320.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S10x320 1) : IVec S_ 1 :=
  let main_c_5 : IVec S_ 1 := constantI S_ 1 1#1
  let main_v17 : IVec S_ 1 := (fun x v => Host.reduce IntOp.andi x v reducesTo_S10x320_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S65536x784 .f32) (main_arg1 : FVec F S320x784 .f32) (main_arg2 : FVec F S320 .f32) (main_arg3 : FVec F S10x320 .f32) (main_arg4 : FVec F S10 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S320x784 .f32 := Host.absf main_arg1
  let main_cst_0 : FVec F S_ .f32 := constant S_ .f32 0x7F800000#32
  let main_v5 : FVec F S320x784 .f32 := broadcastInDim S320x784 ![] bcast_S_S320x784 main_cst_0
  let main_v6 : IVec S320x784 1 := cmpf .olt main_v4 main_v5
  let main_c_1 : IVec S_ 1 := constantI S_ 1 1#1
  let main_v7 : IVec S_ 1 := (fun x v => Host.reduce IntOp.andi x v reducesTo_S320x784_S_d0_1 h_S_) main_v6 main_c_1
  let main_v8 : IVec S_ 1 := andi main_v3 main_v7
  let main_v9 : FVec F S320 .f32 := Host.absf main_arg2
  let main_cst_2 : FVec F S_ .f32 := constant S_ .f32 0x7F800000#32
  let main_v10 : FVec F S320 .f32 := broadcastInDim S320 ![] bcast_S_S320 main_cst_2
  let main_v11 : IVec S320 1 := cmpf .olt main_v9 main_v10
  let main_c_3 : IVec S_ 1 := constantI S_ 1 1#1
  let main_v12 : IVec S_ 1 := (fun x v => Host.reduce IntOp.andi x v reducesTo_S320_S_d0 h_S_) main_v11 main_c_3
  let main_v13 : IVec S_ 1 := andi main_v8 main_v12
  let main_v14 : FVec F S10x320 .f32 := Host.absf main_arg3
  let main_cst_4 : FVec F S_ .f32 := constant S_ .f32 0x7F800000#32
  let main_v15 : FVec F S10x320 .f32 := broadcastInDim S10x320 ![] bcast_S_S10x320 main_cst_4
  let main_v16 : IVec S10x320 1 := cmpf .olt main_v14 main_v15
  fn_part1 (F := F) main_arg4 main_v13 main_v16
-- ==== Kernel.lean ====
abbrev S65536x784 : Shape := ⟨2, ![65536, 784]⟩
abbrev S320x784 : Shape := ⟨2, ![320, 784]⟩
abbrev S320 : Shape := ⟨1, ![320]⟩
abbrev S10x320 : Shape := ⟨2, ![10, 320]⟩
abbrev S10 : Shape := ⟨1, ![10]⟩
abbrev S1x320 : Shape := ⟨2, ![1, 320]⟩
abbrev S1x10 : Shape := ⟨2, ![1, 10]⟩
abbrev S65536x10 : Shape := ⟨2, ![65536, 10]⟩
abbrev S1024x784 : Shape := ⟨2, ![1024, 784]⟩
abbrev S1024x10 : Shape := ⟨2, ![1024, 10]⟩
abbrev S1024x320 : Shape := ⟨2, ![1024, 320]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S65536x784, .f32⟩
  | .hbm, ⟨1, _⟩ => ⟨S320x784, .f32⟩
  | .hbm, ⟨2, _⟩ => ⟨S320, .f32⟩
  | .hbm, ⟨3, _⟩ => ⟨S10x320, .f32⟩
  | .hbm, ⟨4, _⟩ => ⟨S10, .f32⟩
  | .hbm, ⟨5, _⟩ => ⟨S1x320, .f32⟩
  | .hbm, ⟨6, _⟩ => ⟨S1x10, .f32⟩
  | .hbm, ⟨7, _⟩ => ⟨S65536x10, .f32⟩
  | .local _ .vmem, ⟨0, _⟩ => ⟨S1024x784, .f32⟩
  | .local _ .vmem, ⟨1, _⟩ => ⟨S1024x784, .f32⟩
  | .local _ .vmem, ⟨2, _⟩ => ⟨S320x784, .f32⟩
  | .local _ .vmem, ⟨3, _⟩ => ⟨S1x320, .f32⟩
  | .local _ .vmem, ⟨4, _⟩ => ⟨S10x320, .f32⟩
  | .local _ .vmem, ⟨5, _⟩ => ⟨S1x10, .f32⟩
  | .local _ .vmem, ⟨6, _⟩ => ⟨S1024x10, .f32⟩
  | .local _ .vmem, ⟨7, _⟩ => ⟨S1024x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S320_S1x320 : S320.ShapeCasts S1x320
  shapeCasts_S10_S1x10 : S10.ShapeCasts S1x10
  inb_S1024x784_S1024x784_0_0 : ∀ a, (![0, 0] : Fin 2 → Nat) a + S1024x784.size a ≤ S1024x784.size a
  h_S1024x784 : 0 < S1024x784.numel
  bitsLt_bf16_f32 : FTy.bits .bf16 < FTy.bits .f32
  inb_S320x784_S320x784_0_0 : ∀ a, (![0, 0] : Fin 2 → Nat) a + S320x784.size a ≤ S320x784.size a
  h_S320x784 : 0 < S320x784.numel
  inb_S1x320_S1x320_0_0 : ∀ a, (![0, 0] : Fin 2 → Nat) a + S1x320.size a ≤ S1x320.size a
  h_S1x320 : 0 < S1x320.numel
  shapeCasts_S1x320_S1x320 : S1x320.ShapeCasts S1x320
  broadcasts_S1x320_S1024x320 : S1x320.Broadcasts S1024x320
  inb_S10x320_S10x320_0_0 : ∀ a, (![0, 0] : Fin 2 → Nat) a + S10x320.size a ≤ S10x320.size a
  h_S10x320 : 0 < S10x320.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  reduces_S1024x10_S1024 : S1024x10.Reduces [1] S1024
  shapeCasts_S1024_S1024x1 : S1024.ShapeCasts S1024x1
  broadcasts_S1024x1_S1024x10 : S1024x1.Broadcasts S1024x10
  inb_S1024x10_S1024x10_0_0 : ∀ a, (![0, 0] : Fin 2 → Nat) a + S1024x10.size a ≤ S1024x10.size a
  h_S1024x10 : 0 < S1024x10.numel
  dot_S1024x784_S320x784_S1024x320_1_1_0_0_n_n_wf : DotDims.WF S1024x784 S320x784 S1024x320 [1] [1] [0] [0] [] []
  dot_S1024x320_S10x320_S1024x10_1_1_0_0_n_n_wf : DotDims.WF S1024x320 S10x320 S1024x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S65536x784.size a
  hwx0_0 : ∀ i : grid0.Coords, EltTy.bits .f32 = 32 ∨ (Rect.block (s := S65536x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x784.size a ≤ S320x784.size a
  hwx0_1 : ∀ i : grid0.Coords, EltTy.bits .f32 = 32 ∨ (Rect.block (s := S320x784) S320x784.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x320.size a ≤ S1x320.size a
  hwx0_2 : ∀ i : grid0.Coords, EltTy.bits .f32 = 32 ∨ (Rect.block (s := S1x320) S1x320.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x320.size a ≤ S10x320.size a
  hwx0_3 : ∀ i : grid0.Coords, EltTy.bits .f32 = 32 ∨ (Rect.block (s := S10x320) S10x320.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x10.size a ≤ S65536x10.size a
  hwx0_5 : ∀ i : grid0.Coords, EltTy.bits .f32 = 32 ∨ (Rect.block (s := S65536x10) S1024x10.size (cc0_transform_5 i) (hinb0_5 i)).WholeWords (EltTy.packing .f32)

variable [Facts₀]

def dot_S1024x784_S320x784_S1024x320_1_1_0_0_n_n : DotDims S1024x784 S320x784 S1024x320 where
  lhsContracting := [1]
  rhsContracting := [1]
  lhsNonContracting := [0]
  rhsNonContracting := [0]
  lhsBatch := []
  rhsBatch := []
  wf := dot_S1024x784_S320x784_S1024x320_1_1_0_0_n_n_wf
def dot_S1024x320_S10x320_S1024x10_1_1_0_0_n_n : DotDims S1024x320 S10x320 S1024x10 where
  lhsContracting := [1]
  rhsContracting := [1]
  lhsNonContracting := [0]
  rhsNonContracting := [0]
  lhsBatch := []
  rhsBatch := []
  wf := dot_S1024x320_S10x320_S1024x10_1_1_0_0_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S320x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x320.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x320.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x784 : Shape := ⟨2, ![65536, 784]⟩
abbrev S320x784 : Shape := ⟨2, ![320, 784]⟩
abbrev S320 : Shape := ⟨1, ![320]⟩
abbrev S10x320 : Shape := ⟨2, ![10, 320]⟩
abbrev S10 : Shape := ⟨1, ![10]⟩
abbrev S_ : Shape := ⟨0, ![]⟩
abbrev S784x320 : Shape := ⟨2, ![784, 320]⟩
abbrev S65536x320 : Shape := ⟨2, ![65536, 320]⟩
abbrev S1x320 : Shape := ⟨2, ![1, 320]⟩
abbrev S320x10 : Shape := ⟨2, ![320, 10]⟩
abbrev S65536x10 : Shape := ⟨2, ![65536, 10]⟩
abbrev S1x10 : Shape := ⟨2, ![1, 10]⟩
abbrev S65536 : Shape := ⟨1, ![65536]⟩
abbrev S65536x1 : Shape := ⟨2, ![65536, 1]⟩

abbrev nBuf : Space → Nat
  | .hbm => 91
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S320x784, .f32⟩
  | .hbm, ⟨2, _⟩ => ⟨S320, .f32⟩
  | .hbm, ⟨3, _⟩ => ⟨S10x320, .f32⟩
  | .hbm, ⟨4, _⟩ => ⟨S10, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S320x784, .f32⟩
  | .hbm, ⟨9, _⟩ => ⟨S320x784, .f32⟩
  | .hbm, ⟨10, _⟩ => ⟨S_, .f32⟩
  | .hbm, ⟨11, _⟩ => ⟨S320x784, .f32⟩
  | .hbm, ⟨12, _⟩ => ⟨S320x784, .f32⟩
  | .hbm, ⟨13, _⟩ => ⟨S_, .f32⟩
  | .hbm, ⟨14, _⟩ => ⟨S320x784, .f32⟩
  | .hbm, ⟨15, _⟩ => ⟨S320x784, .i1⟩
  | .hbm, ⟨16, _⟩ => ⟨S_, .f32⟩
  | .hbm, ⟨17, _⟩ => ⟨S320x784, .f32⟩
  | .hbm, ⟨18, _⟩ => ⟨S320x784, .i1⟩
  | .hbm, ⟨19, _⟩ => ⟨S_, .f32⟩
  | .hbm, ⟨20, _⟩ => ⟨S_, .f32⟩
  | .hbm, ⟨21, _⟩ => ⟨S320x784, .f32⟩
  | .hbm, ⟨22, _⟩ => ⟨S320x784, .f32⟩
  | .hbm, ⟨23, _⟩ => ⟨S320x784, .f32⟩
  | .hbm, ⟨24, _⟩ => ⟨S_, .f32⟩
  | .hbm, ⟨25, _⟩ => ⟨S320x784, .f32⟩
  | .hbm, ⟨26, _⟩ => ⟨S320x784, .f32⟩
  | .hbm, ⟨27, _⟩ => ⟨S320x784, .f32⟩
  | .hbm, ⟨28, _⟩ => ⟨S784x320, .f32⟩
  | .hbm, ⟨29, _⟩ => ⟨S65536x320, .f32⟩
  | .hbm, ⟨30, _⟩ => ⟨S1x320, .f32⟩
  | .hbm, ⟨31, _⟩ => ⟨S65536x320, .f32⟩
  | .hbm, ⟨32, _⟩ => ⟨S65536x320, .f32⟩
  | .hbm, ⟨33, _⟩ => ⟨S_, .f32⟩
  | .hbm, ⟨34, _⟩ => ⟨S65536x320, .f32⟩
  | .hbm, ⟨35, _⟩ => ⟨S65536x320, .i1⟩
  | .hbm, ⟨36, _⟩ => ⟨S_, .f32⟩
  | .hbm, ⟨37, _⟩ => ⟨S65536x320, .f32⟩
  | .hbm, ⟨38, _⟩ => ⟨S65536x320, .i1⟩
  | .hbm, ⟨39, _⟩ => ⟨S_, .f32⟩
  | .hbm, ⟨40, _⟩ => ⟨S_, .f32⟩
  | .hbm, ⟨41, _⟩ => ⟨S65536x320, .f32⟩
  | .hbm, ⟨42, _⟩ => ⟨S65536x320, .f32⟩
  | .hbm, ⟨43, _⟩ => ⟨S65536x320, .f32⟩
  | .hbm, ⟨44, _⟩ => ⟨S_, .f32⟩
  | .hbm, ⟨45, _⟩ => ⟨S65536x320, .f32⟩
  | .hbm, ⟨46, _⟩ => ⟨S65536x320, .f32⟩
  | .hbm, ⟨47, _⟩ => ⟨S65536x320, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S10x320, .f32⟩
  | .hbm, ⟨52, _⟩ => ⟨S10x320, .f32⟩
  | .hbm, ⟨53, _⟩ => ⟨S_, .f32⟩
  | .hbm, ⟨54, _⟩ => ⟨S10x320, .f32⟩
  | .hbm, ⟨55, _⟩ => ⟨S10x320, .f32⟩
  | .hbm, ⟨56, _⟩ => ⟨S_, .f32⟩
  | .hbm, ⟨57, _⟩ => ⟨S10x320, .f32⟩
  | .hbm, ⟨58, _⟩ => ⟨S10x320, .i1⟩
  | .hbm, ⟨59, _⟩ => ⟨S_, .f32⟩
  | .hbm, ⟨60, _⟩ => ⟨S10x320, .f32⟩
  | .hbm, ⟨61, _⟩ => ⟨S10x320, .i1⟩
  | .hbm, ⟨62, _⟩ => ⟨S_, .f32⟩
  | .hbm, ⟨63, _⟩ => ⟨S_, .f32⟩
  | .hbm, ⟨64, _⟩ => ⟨S10x320, .f32⟩
  | .hbm, ⟨65, _⟩ => ⟨S10x320, .f32⟩
  | .hbm, ⟨66, _⟩ => ⟨S10x320, .f32⟩
  | .hbm, ⟨67, _⟩ => ⟨S_, .f32⟩
  | .hbm, ⟨68, _⟩ => ⟨S10x320, .f32⟩
  | .hbm, ⟨69, _⟩ => ⟨S10x320, .f32⟩
  | .hbm, ⟨70, _⟩ => ⟨S10x320, .f32⟩
  | .hbm, ⟨71, _⟩ => ⟨S320x10, .f32⟩
  | .hbm, ⟨72, _⟩ => ⟨S65536x10, .f32⟩
  | .hbm, ⟨73, _⟩ => ⟨S1x10, .f32⟩
  | .hbm, ⟨74, _⟩ => ⟨S65536x10, .f32⟩
  | .hbm, ⟨75, _⟩ => ⟨S65536x10, .f32⟩
  | .hbm, ⟨76, _⟩ => ⟨S_, .f32⟩
  | .hbm, ⟨77, _⟩ => ⟨S65536, .f32⟩
  | .hbm, ⟨78, _⟩ => ⟨S_, .f32⟩
  | .hbm, ⟨79, _⟩ => ⟨S65536, .f32⟩
  | .hbm, ⟨80, _⟩ => ⟨S65536, .f32⟩
  | .hbm, ⟨81, _⟩ => ⟨S65536x1, .f32⟩
  | .hbm, ⟨82, _⟩ => ⟨S65536x10, .f32⟩
  | .hbm, ⟨83, _⟩ => ⟨S65536x10, .f32⟩
  | .hbm, ⟨84, _⟩ => ⟨S65536x10, .f32⟩
  | .hbm, ⟨85, _⟩ => ⟨S_, .f32⟩
  | .hbm, ⟨86, _⟩ => ⟨S65536, .f32⟩
  | .hbm, ⟨87, _⟩ => ⟨S65536x1, .f32⟩
  | .hbm, ⟨88, _⟩ => ⟨S65536x1, .f32⟩
  | .hbm, ⟨89, _⟩ => ⟨S65536x10, .f32⟩
  | .hbm, ⟨90, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_v4 : Ref sig .tc := ⟨.hbm, 18, rfl⟩
abbrev main_cst_3 : Ref sig .tc := ⟨.hbm, 19, rfl⟩
abbrev main_cst_4 : Ref sig .tc := ⟨.hbm, 20, rfl⟩
abbrev main_call1_v0 : Ref sig .tc := ⟨.hbm, 21, rfl⟩
abbrev main_call1_v1 : Ref sig .tc := ⟨.hbm, 22, rfl⟩
abbrev main_v5 : Ref sig .tc := ⟨.hbm, 23, rfl⟩
abbrev main_cst_5 : Ref sig .tc := ⟨.hbm, 24, rfl⟩
abbrev main_call2_v0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_6 : Ref sig .tc := ⟨.hbm, 33, rfl⟩
abbrev main_v13 : Ref sig .tc := ⟨.hbm, 34, rfl⟩
abbrev main_v14 : Ref sig .tc := ⟨.hbm, 35, rfl⟩
abbrev main_cst_7 : Ref sig .tc := ⟨.hbm, 36, rfl⟩
abbrev main_v15 : Ref sig .tc := ⟨.hbm, 37, rfl⟩
abbrev main_v16 : Ref sig .tc := ⟨.hbm, 38, rfl⟩
abbrev main_cst_8 : Ref sig .tc := ⟨.hbm, 39, rfl⟩
abbrev main_cst_9 : Ref sig .tc := ⟨.hbm, 40, rfl⟩
abbrev main_call3_v0 : Ref sig .tc := ⟨.hbm, 41, rfl⟩
abbrev main_call3_v1 : Ref sig .tc := ⟨.hbm, 42, rfl⟩
abbrev main_v17 : Ref sig .tc := ⟨.hbm, 43, rfl⟩
abbrev main_cst_10 : Ref sig .tc := ⟨.hbm, 44, rfl⟩
abbrev main_call4_v0 : Ref sig .tc := ⟨.hbm, 45, rfl⟩
abbrev main_v18 : Ref sig .tc := ⟨.hbm, 46, rfl⟩
abbrev main_v19 : Ref sig .tc := ⟨.hbm, 47, rfl⟩
abbrev main_cst_11 : Ref sig .tc := ⟨.hbm, 48, rfl⟩
abbrev main_cst_12 : Ref sig .tc := ⟨.hbm, 49, rfl⟩
abbrev main_call5_v0 : Ref sig .tc := ⟨.hbm, 50, rfl⟩
abbrev main_call5_v1 : Ref sig .tc := ⟨.hbm, 51, rfl⟩
abbrev main_call5_v2 : Ref sig .tc := ⟨.hbm, 52, rfl⟩
abbrev main_call5_v3 : Ref sig .tc := ⟨.hbm, 53, rfl⟩
abbrev main_call5_v4 : Ref sig .tc := ⟨.hbm, 54, rfl⟩
abbrev main_v20 : Ref sig .tc := ⟨.hbm, 55, rfl⟩
abbrev main_cst_13 : Ref sig .tc := ⟨.hbm, 56, rfl⟩
abbrev main_v21 : Ref sig .tc := ⟨.hbm, 57, rfl⟩
abbrev main_v22 : Ref sig .tc := ⟨.hbm, 58, rfl⟩
abbrev main_cst_14 : Ref sig .tc := ⟨.hbm, 59, rfl⟩
abbrev main_v23 : Ref sig .tc := ⟨.hbm, 60, rfl⟩
abbrev main_v24 : Ref sig .tc := ⟨.hbm, 61, rfl⟩
abbrev main_cst_15 : Ref sig .tc := ⟨.hbm, 62, rfl⟩
abbrev main_cst_16 : Ref sig .tc := ⟨.hbm, 63, rfl⟩
abbrev main_call6_v0 : Ref sig .tc := ⟨.hbm, 64, rfl⟩
abbrev main_call6_v1 : Ref sig .tc := ⟨.hbm, 65, rfl⟩
abbrev main_v25 : Ref sig .tc := ⟨.hbm, 66, rfl⟩
abbrev main_cst_17 : Ref sig .tc := ⟨.hbm, 67, rfl⟩
abbrev main_call7_v0 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_call8_cst : Ref sig .tc := ⟨.hbm, 76, rfl⟩
abbrev main_call8_v0 : Ref sig .tc := ⟨.hbm, 77, rfl⟩
abbrev main_call8_cst_0 : Ref sig .tc := ⟨.hbm, 78, rfl⟩
abbrev main_call8_v1 : Ref sig .tc := ⟨.hbm, 79, rfl⟩
abbrev main_call8_v2 : Ref sig .tc := ⟨.hbm, 80, rfl⟩
abbrev main_call8_v3 : Ref sig .tc := ⟨.hbm, 81, rfl⟩
abbrev main_call8_v4 : Ref sig .tc := ⟨.hbm, 82, rfl⟩
abbrev main_call8_v5 : Ref sig .tc := ⟨.hbm, 83, rfl⟩
abbrev main_call8_v6 : Ref sig .tc := ⟨.hbm, 84, rfl⟩
abbrev main_call8_cst_1 : Ref sig .tc := ⟨.hbm, 85, rfl⟩
abbrev main_call8_v7 : Ref sig .tc := ⟨.hbm, 86, rfl⟩
abbrev main_call8_v8 : Ref sig .tc := ⟨.hbm, 87, rfl⟩
abbrev main_call8_v9 : Ref sig .tc := ⟨.hbm, 88, rfl⟩
abbrev main_call8_v10 : Ref sig .tc := ⟨.hbm, 89, rfl⟩
abbrev main_v33 : Ref sig .tc := ⟨.hbm, 90, rfl⟩

abbrev nD : Nat := 1
abbrev τ : Topo := Topo.v7x

variable {F : FTy → Type} [FloatOps F]

class Facts₀ : Prop where
  bcast_S_S320x784 : S_.BroadcastsInDim S320x784 (![] : Fin 0 → Fin S320x784.rank)
  transposes_S320x784_S784x320_1_0 : S320x784.Transposes [1, 0] S784x320
  bcast_S320_S1x320_1 : S320.BroadcastsInDim S1x320 (![1] : Fin 1 → Fin S1x320.rank)
  bcast_S1x320_S65536x320_0_1 : S1x320.BroadcastsInDim S65536x320 (![0, 1] : Fin 2 → Fin S65536x320.rank)
  bcast_S_S65536x320 : S_.BroadcastsInDim S65536x320 (![] : Fin 0 → Fin S65536x320.rank)
  bcast_S_S10x320 : S_.BroadcastsInDim S10x320 (![] : Fin 0 → Fin S10x320.rank)
  transposes_S10x320_S320x10_1_0 : S10x320.Transposes [1, 0] S320x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  reducesTo_S65536x10_S65536_d1 : S65536x10.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x10_0_1 : S65536x1.BroadcastsInDim S65536x10 (![0, 1] : Fin 2 → Fin S65536x10.rank)
  dot_S65536x784_S784x320_S65536x320_1_0_0_1_n_n_wf : DotDims.WF S65536x784 S784x320 S65536x320 [1] [0] [0] [1] [] []
  dot_S65536x320_S320x10_S65536x10_1_0_0_1_n_n_wf : DotDims.WF S65536x320 S320x10 S65536x10 [1] [0] [0] [1] [] []

variable [Facts₀]

def dot_S65536x784_S784x320_S65536x320_1_0_0_1_n_n : DotDims S65536x784 S784x320 S65536x320 where
  lhsContracting := [1]
  rhsContracting := [0]
  lhsNonContracting := [0]
  rhsNonContracting := [1]
  lhsBatch := []
  rhsBatch := []
  wf := dot_S65536x784_S784x320_S65536x320_1_0_0_1_n_n_wf
def dot_S65536x320_S320x10_S65536x10_1_0_0_1_n_n : DotDims S65536x320 S320x10 S65536x10 where
  lhsContracting := [1]
  rhsContracting := [0]
  lhsNonContracting := [0]
  rhsNonContracting := [1]
  lhsBatch := []
  rhsBatch := []
  wf := dot_S65536x320_S320x10_S65536x10_1_0_0_1_n_n_wf

class Facts : Prop extends Facts₀ where

variable [Facts]
-- ==== Proof.Spec.lean ====
/-
  The function both programs compute, one batch row at a time.

  A weight is clamped to [-1, 1] and then quantized to {-1, 0, 1} with a dead zone around zero; a row of the
  input is contracted against the quantized first-layer weights, the first bias is added, and the result is
  quantized again; that hidden row is contracted against the quantized second-layer weights and the second
  bias is added, giving the row's ten logits; the row's output is its log-softmax: the logits shifted by their
  maximum, minus the logarithm of the sum of the exponentials of the shifted logits.

  Everything is over the extended reals, where a change of float format is the identity, so the only things the
  two programs could differ in are the order of a sum (immaterial: addition is commutative and associative) and
  one extra maximum with the reduction's own starting value on the reference's side (absorbed by the fold).
  The float literals are kept as their bit patterns: the same pattern denotes the same extended real on both
  sides, and none of them is ever evaluated.
-/
import Idealize.ShloMosaic.PureOps.Ideal
import Idealize.ShloMosaic.PureOps.Ideal.Laws
import Idealize.ShloMosaic.Lib.ValueIdx
import Mathlib.Data.Finset.Fold

noncomputable section

namespace Cert.TernaryMlp

open Idealize.ShloMosaic Idealize.ShloMosaic.ValueIdx
open scoped BigOperators

/-- Clamp to [-1, 1]: the larger of -1 and `t`, then the smaller of 1 and that. -/
def clip (t : EReal) : EReal :=
  min (Ideal.ofBits .f32 0x3F800000#32) (max (Ideal.ofBits .f32 0xBF800000#32) t)

/-- The ternary quantizer: 1 above the threshold, -1 below its negative, 0 in the dead zone between. -/
def tern (t : EReal) : EReal :=
  Scalar.select (Ideal.cmp .ogt t (Ideal.ofBits .f32 0x3A83126F#32)) (Ideal.ofBits .f32 0x3F800000#32)
    (Scalar.select (Ideal.cmp .olt t (Ideal.ofBits .f32 0xBA83126F#32)) (Ideal.ofBits .f32 0xBF800000#32)
      (Ideal.ofBits .f32 0x00000000#32))

/-- A quantized weight. -/
def qw (t : EReal) : EReal := tern (clip t)

/-- Entry `j` of the hidden row: the input row against row `j` of the quantized first-layer weights, plus the
    bias, quantized. -/
def hiddenRow (x : Fin 784 → EReal) (w1 : Fin 320 → Fin 784 → EReal) (b1 : Fin 320 → EReal) (j : Fin 320) : EReal :=
  tern ((∑ k : Fin 784, x k * qw (w1 j k)) + b1 j)

/-- Logit `n` of a row: the hidden row against row `n` of the quantized second-layer weights, plus the bias. -/
def logitRow (h : Fin 320 → EReal) (w2 : Fin 10 → Fin 320 → EReal) (b2 : Fin 10 → EReal) (n : Fin 10) : EReal :=
  (∑ j : Fin 320, h j * qw (w2 n j)) + b2 n

/-- The largest of a row's ten logits, folded from minus infinity. -/
def rowMax (l : Fin 10 → EReal) : EReal :=
  (Finset.univ : Finset (Fin 10)).fold max (Ideal.ofBits .f32 0xFF800000#32) l

/-- The log-softmax of a row of ten logits at position `n`. -/
def logSoftmaxRow (l : Fin 10 → EReal) (n : Fin 10) : EReal :=
  (l n - rowMax l) - Ideal.log (∑ n' : Fin 10, Ideal.exp (l n' - rowMax l))

/-- One output row from one input row and the four parameter arrays. -/
def outRow (x : Fin 784 → EReal) (w1 : Fin 320 → Fin 784 → EReal) (b1 : Fin 320 → EReal)
    (w2 : Fin 10 → Fin 320 → EReal) (b2 : Fin 10 → EReal) (n : Fin 10) : EReal :=
  logSoftmaxRow (logitRow (hiddenRow x w1 b1) w2 b2) n

/-- Taking the maximum once more with the fold's own starting value changes nothing: the fold is already at
    least that value. -/
theorem max_init_rowMax (l : Fin 10 → EReal) : max (Ideal.ofBits .f32 0xFF800000#32) (rowMax l) = rowMax l :=
  max_eq_right ((Finset.le_fold_max _).mpr (Or.inl le_rfl))

/-- The whole result array as one function of the five argument arrays: row `i 0`, position `i 1`. -/
def result (x : (⟨2, ![65536, 784]⟩ : Shape).Idx → EReal) (w1 : (⟨2, ![320, 784]⟩ : Shape).Idx → EReal)
    (b1 : (⟨1, ![320]⟩ : Shape).Idx → EReal) (w2 : (⟨2, ![10, 320]⟩ : Shape).Idx → EReal)
    (b2 : (⟨1, ![10]⟩ : Shape).Idx → EReal) : (⟨2, ![65536, 10]⟩ : Shape).Idx → EReal :=
  fun i => outRow (fun k => x (ix2 (i 0) k)) (fun j k => w1 (ix2 j k)) (fun j => b1 (ix1 j))
    (fun n j => w2 (ix2 n j)) (fun n => b2 (ix1 n)) (i 1)

end Cert.TernaryMlp

end
-- ==== Proof.BodyOps.lean ====
/-
  The kernel's body, read one entry at a time.

  On a block of 1024 input rows the body quantizes both weight matrices, contracts each input row against the
  quantized first-layer weights, adds the first bias, quantizes, contracts against the quantized second-layer
  weights, adds the second bias, and takes the log-softmax along the row. Read at row `p` and position `n` of the
  block, that is the row function `outRow` of the specification applied to row `p` of the input block and to the
  four parameter blocks: each matrix product read at an entry is the sum over the contracted axis of the products of
  the operands' entries (both operands are contracted along their second axis), a change of float format is the
  identity, and the row maximum and the row sum are a fold and a sum over the ten positions of the row.
-/
import proofs.«156718_j71167608094757_1_alg».proof.Proof.Gen.KernelIdeal.Skeleton
import proofs.«156718_j71167608094757_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.TernaryMlp.Body

open Cert.KernelIdeal Cert.KernelIdeal.Gen Idealize.ShloMosaic Idealize.ShloMosaic.ValueIdx Cert.TernaryMlp
open scoped BigOperators

/-! ## The two matrix products at an entry -/

theorem lhs1_0 (i : S1024x320.Idx) (q : dot_S1024x784_S320x784_S1024x320_1_1_0_0_n_n.contr.Idx) :
    (dot_S1024x784_S320x784_S1024x320_1_1_0_0_n_n.lhsIdx i q 0).val = (i 0).val := by
  unfold DotDims.lhsIdx
  rw [dif_neg (show ¬(0 : Fin S1024x784.rank) ∈ dot_S1024x784_S320x784_S1024x320_1_1_0_0_n_n.lhsBatch by decide), dif_pos (show (0 : Fin S1024x784.rank) ∈ dot_S1024x784_S320x784_S1024x320_1_1_0_0_n_n.lhsNonContracting by decide)]
  rfl
theorem lhs1_1 (i : S1024x320.Idx) (q : dot_S1024x784_S320x784_S1024x320_1_1_0_0_n_n.contr.Idx) :
    (dot_S1024x784_S320x784_S1024x320_1_1_0_0_n_n.lhsIdx i q 1).val = (q ⟨0, by decide⟩).val :=
  dot_S1024x784_S320x784_S1024x320_1_1_0_0_n_n.lhsIdx_val_of_single rfl i q
theorem rhs1_0 (i : S1024x320.Idx) (q : dot_S1024x784_S320x784_S1024x320_1_1_0_0_n_n.contr.Idx) :
    (dot_S1024x784_S320x784_S1024x320_1_1_0_0_n_n.rhsIdx i q 0).val = (i 1).val := by
  unfold DotDims.rhsIdx
  rw [dif_neg (show ¬(0 : Fin S320x784.rank) ∈ dot_S1024x784_S320x784_S1024x320_1_1_0_0_n_n.rhsBatch by decide), dif_pos (show (0 : Fin S320x784.rank) ∈ dot_S1024x784_S320x784_S1024x320_1_1_0_0_n_n.rhsNonContracting by decide)]
  rfl
theorem rhs1_1 (i : S1024x320.Idx) (q : dot_S1024x784_S320x784_S1024x320_1_1_0_0_n_n.contr.Idx) :
    (dot_S1024x784_S320x784_S1024x320_1_1_0_0_n_n.rhsIdx i q 1).val = (q ⟨0, by decide⟩).val :=
  dot_S1024x784_S320x784_S1024x320_1_1_0_0_n_n.rhsIdx_val_of_single rfl i q

/-- The first product at (p, j): row `p` of the left operand against row `j` of the right one. -/
theorem matmul1_apply (l : FVec Ideal S1024x784 .bf16) (r : FVec Ideal S320x784 .bf16) (p : Fin 1024) (j : Fin 320) :
    matmul dot_S1024x784_S320x784_S1024x320_1_1_0_0_n_n none l r (constant (F := Ideal) S1024x320 .f32 0x00000000#32) (ix2 p j)
      = ∑ k : Fin 784, l (ix2 p k) * r (ix2 j k) := by
  simp only [matmul]
  rw [Ideal.matmul_constant_zero_apply, ← Equiv.sum_comp (ValueIdx.contrEquiv1 dot_S1024x784_S320x784_S1024x320_1_1_0_0_n_n 784 rfl rfl).symm]
  refine Finset.sum_congr rfl fun k _ => ?_
  have hk := ValueIdx.contrEquiv1_symm_val dot_S1024x784_S320x784_S1024x320_1_1_0_0_n_n 784 rfl rfl k
  have el : dot_S1024x784_S320x784_S1024x320_1_1_0_0_n_n.lhsIdx (ix2 p j) ((ValueIdx.contrEquiv1 dot_S1024x784_S320x784_S1024x320_1_1_0_0_n_n 784 rfl rfl).symm k) = ix2 p k := funext fun a => Fin.ext (by
    match a with
    | ⟨0, _⟩ => exact lhs1_0 _ _
    | ⟨1, _⟩ => exact (lhs1_1 _ _).trans hk)
  have er : dot_S1024x784_S320x784_S1024x320_1_1_0_0_n_n.rhsIdx (ix2 p j) ((ValueIdx.contrEquiv1 dot_S1024x784_S320x784_S1024x320_1_1_0_0_n_n 784 rfl rfl).symm k) = ix2 j k := funext fun a => Fin.ext (by
    match a with
    | ⟨0, _⟩ => exact rhs1_0 _ _
    | ⟨1, _⟩ => exact (rhs1_1 _ _).trans hk)
  rw [el, er]

theorem lhs2_0 (i : S1024x10.Idx) (q : dot_S1024x320_S10x320_S1024x10_1_1_0_0_n_n.contr.Idx) :
    (dot_S1024x320_S10x320_S1024x10_1_1_0_0_n_n.lhsIdx i q 0).val = (i 0).val := by
  unfold DotDims.lhsIdx
  rw [dif_neg (show ¬(0 : Fin S1024x320.rank) ∈ dot_S1024x320_S10x320_S1024x10_1_1_0_0_n_n.lhsBatch by decide), dif_pos (show (0 : Fin S1024x320.rank) ∈ dot_S1024x320_S10x320_S1024x10_1_1_0_0_n_n.lhsNonContracting by decide)]
  rfl
theorem lhs2_1 (i : S1024x10.Idx) (q : dot_S1024x320_S10x320_S1024x10_1_1_0_0_n_n.contr.Idx) :
    (dot_S1024x320_S10x320_S1024x10_1_1_0_0_n_n.lhsIdx i q 1).val = (q ⟨0, by decide⟩).val :=
  dot_S1024x320_S10x320_S1024x10_1_1_0_0_n_n.lhsIdx_val_of_single rfl i q
theorem rhs2_0 (i : S1024x10.Idx) (q : dot_S1024x320_S10x320_S1024x10_1_1_0_0_n_n.contr.Idx) :
    (dot_S1024x320_S10x320_S1024x10_1_1_0_0_n_n.rhsIdx i q 0).val = (i 1).val := by
  unfold DotDims.rhsIdx
  rw [dif_neg (show ¬(0 : Fin S10x320.rank) ∈ dot_S1024x320_S10x320_S1024x10_1_1_0_0_n_n.rhsBatch by decide), dif_pos (show (0 : Fin S10x320.rank) ∈ dot_S1024x320_S10x320_S1024x10_1_1_0_0_n_n.rhsNonContracting by decide)]
  rfl
theorem rhs2_1 (i : S1024x10.Idx) (q : dot_S1024x320_S10x320_S1024x10_1_1_0_0_n_n.contr.Idx) :
    (dot_S1024x320_S10x320_S1024x10_1_1_0_0_n_n.rhsIdx i q 1).val = (q ⟨0, by decide⟩).val :=
  dot_S1024x320_S10x320_S1024x10_1_1_0_0_n_n.rhsIdx_val_of_single rfl i q

/-- The second product at (p, n): row `p` of the left operand against row `n` of the right one. -/
theorem matmul2_apply (l : FVec Ideal S1024x320 .bf16) (r : FVec Ideal S10x320 .bf16) (p : Fin 1024) (n : Fin 10) :
    matmul dot_S1024x320_S10x320_S1024x10_1_1_0_0_n_n none l r (constant (F := Ideal) S1024x10 .f32 0x00000000#32) (ix2 p n)
      = ∑ j : Fin 320, l (ix2 p j) * r (ix2 n j) := by
  simp only [matmul]
  rw [Ideal.matmul_constant_zero_apply, ← Equiv.sum_comp (ValueIdx.contrEquiv1 dot_S1024x320_S10x320_S1024x10_1_1_0_0_n_n 320 rfl rfl).symm]
  refine Finset.sum_congr rfl fun k _ => ?_
  have hk := ValueIdx.contrEquiv1_symm_val dot_S1024x320_S10x320_S1024x10_1_1_0_0_n_n 320 rfl rfl k
  have el : dot_S1024x320_S10x320_S1024x10_1_1_0_0_n_n.lhsIdx (ix2 p n) ((ValueIdx.contrEquiv1 dot_S1024x320_S10x320_S1024x10_1_1_0_0_n_n 320 rfl rfl).symm k) = ix2 p k := funext fun a => Fin.ext (by
    match a with
    | ⟨0, _⟩ => exact lhs2_0 _ _
    | ⟨1, _⟩ => exact (lhs2_1 _ _).trans hk)
  have er : dot_S1024x320_S10x320_S1024x10_1_1_0_0_n_n.rhsIdx (ix2 p n) ((ValueIdx.contrEquiv1 dot_S1024x320_S10x320_S1024x10_1_1_0_0_n_n 320 rfl rfl).symm k) = ix2 n k := funext fun a => Fin.ext (by
    match a with
    | ⟨0, _⟩ => exact rhs2_0 _ _
    | ⟨1, _⟩ => exact (rhs2_1 _ _).trans hk)
  rw [el, er]

/-! ## A column of per-row values, spread back over the row -/

/-- A length-1024 vector recast as a [1024, 1] column reads, at (p, 0), the vector at `p`. -/
theorem column_apply (z : FVec Ideal S1024 .f32) (h : S1024.ShapeCasts S1024x1) (p : Fin 1024) (c : Fin 1) :
    shapeCast S1024x1 z h (ix2 p c) = z (ix1 p) := by
  refine shapeCast_apply z h (ix2 p c) (ix1 p) ?_
  rw [Shape.rowMajor_val_one, Shape.rowMajor_val_two]
  show p.val = p.val * 1 + c.val
  have := c.isLt; omega

/-- A [1024, 1] column broadcast over ten positions reads, at (p, n), the column at row `p`. -/
theorem spread_apply (y : FVec Ideal S1024x1 .f32) (h : S1024x1.Broadcasts S1024x10) (p : Fin 1024) (n : Fin 10) :
    broadcastTo S1024x10 y h (ix2 p n) = y (ix2 p (0 : Fin 1)) := by
  refine broadcastTo_apply y h (ix2 p n) (ix2 p (0 : Fin 1)) fun ax => ?_
  match ax with
  | ⟨0, _⟩ => rfl
  | ⟨1, _⟩ => rfl

/-- The row maximum: the fold of `max` from the starting pattern over the ten positions of row `p`. -/
theorem rowmax_apply (v : FVec Ideal S1024x10 .f32) (h : S1024x10.Reduces [1] S1024) (hφ : FKind.Formats .f32)
    (hacc : (0xFF800000#32 : BitVec 32) = 0xFF800000#32) (p : Fin 1024) :
    multiReduction .maximumf [1] S1024 v 0xFF800000#32 h hφ hacc (ix1 p) = rowMax (fun n => v (ix2 p n)) := by
  refine (Ideal.multiReduction_maximumf_single v 0xFF800000#32 h hφ hacc (ix1 p)).trans ?_
  have e : (v ∘ h.lift (ix1 p)) = fun n => v (ix2 p n) := funext fun n => congrArg v (funext fun a => Fin.ext (by
    match a with
    | ⟨0, _⟩ => rfl
    | ⟨1, _⟩ => rfl))
  rw [e]
  rfl

/-- The row sum over the ten positions of row `p`. -/
theorem rowsum_apply (v : FVec Ideal S1024x10 .f32) (h : S1024x10.Reduces [1] S1024) (hφ : FKind.Formats .f32)
    (hacc : (0x00000000#32 : BitVec 32) = 0x00000000#32) (p : Fin 1024) :
    multiReduction .add [1] S1024 v 0x00000000#32 h hφ hacc (ix1 p) = ∑ n : Fin 10, v (ix2 p n) := by
  refine (Ideal.multiReduction_add_single v 0x00000000#32 h hφ hacc (ix1 p)).trans ?_
  refine Finset.sum_congr rfl fun n _ => congrArg v (funext fun a => Fin.ext ?_)
  match a with
  | ⟨0, _⟩ => rfl
  | ⟨1, _⟩ => rfl

end Cert.TernaryMlp.Body

end
-- ==== Proof.BodyRows.lean ====
/-
  The kernel's stored value as the specification's row function.

  The value the body stores at row `p`, position `n` of its output block is `outRow` of row `p` of the input
  block, the two weight blocks and the two bias rows. Two steps: the hidden entry (first product, bias, quantizer)
  is `hiddenRow`; the stored entry (second product, bias, then the row's maximum, the shifted exponentials' sum
  and its logarithm) is `logSoftmaxRow` of the row's logits. The clamp of the second weight matrix reaches the
  body in two halves (the maximum with -1 and the constant 1 it is then bounded by), which together are `clip`.
-/
import proofs.«156718_j71167608094757_1_alg».proof.Proof.BodyOps

noncomputable section

namespace Cert.TernaryMlp.Body

open Cert.KernelIdeal Cert.KernelIdeal.Gen Idealize.ShloMosaic Idealize.ShloMosaic.ValueIdx Cert.TernaryMlp
open scoped BigOperators

theorem exp_apply {s : Shape} (v : FVec Ideal s .f32) (i : s.Idx) : exp v i = Ideal.exp (v i) := rfl
theorem log_apply {s : Shape} (v : FVec Ideal s .f32) (i : s.Idx) : log v i = Ideal.log (v i) := rfl

/-- The hidden entry at (p, j): row `p` of the input block against row `j` of the quantized first weights, plus
    the bias row at `j`, quantized. -/
theorem hidden_apply (v0 : FVec Ideal S1024x784 .f32) (v2 : FVec Ideal S320x784 .f32) (v18 : FVec Ideal S1x320 .f32)
    (p : Fin 1024) (j : Fin 320) :
    k0_pay2 (F := Ideal) v0 v2 v18 (ix2 p j)
      = hiddenRow (fun k => v0 (ix2 p k)) (fun j k => v2 (ix2 j k)) (fun j => v18 (ix2 (0 : Fin 1) j)) j := by
  unfold k0_pay2
  try dsimp only
  simp only [truncf_apply, select_apply, cmpf_apply, broadcast_apply, addf_apply, matmul1_apply, maximumf_apply,
    minimumf_apply, shapeCast_self, broadcastTo_1b_ab_apply]
  rfl

/-- The stored entry at (p, n) from the hidden block `h`, the two halves of the second weights' clamp and the
    second bias row: the log-softmax of the row's logits. -/
theorem stored_apply (h : FVec Ideal S1024x320 .bf16) (lo hi : FVec Ideal S10x320 .f32) (b : FVec Ideal S1x10 .f32)
    (p : Fin 1024) (n : Fin 10) :
    k0_pay1 (F := Ideal) h lo hi b (ix2 p n)
      = logSoftmaxRow (fun n' => (∑ j : Fin 320, h (ix2 p j) * tern (min (hi (ix2 n' j)) (lo (ix2 n' j))))
          + b (ix2 (0 : Fin 1) n')) n := by
  unfold k0_pay1
  try dsimp only
  simp only [subf_apply, spread_apply, column_apply, log_apply]
  rw [rowsum_apply]
  simp only [exp_apply, subf_apply, spread_apply, column_apply]
  rw [rowmax_apply]
  simp only [addf_apply, matmul2_apply, truncf_apply, select_apply, cmpf_apply, broadcast_apply, minimumf_apply,
    shapeCast_self, broadcastTo_1b_ab_apply]
  rfl

/-- The body's stored value at (p, n) is the specification's row function of row `p` of the input block and the
    four parameter blocks. -/
theorem body_apply (x0 : FVec Ideal S1024x784 .f32) (x1 : FVec Ideal S320x784 .f32) (x2 : FVec Ideal S1x320 .f32)
    (x3 : FVec Ideal S10x320 .f32) (x4 : FVec Ideal S1x10 .f32) (p : Fin 1024) (n : Fin 10) :
    k0_pay1 (F := Ideal) (k0_pay2 (F := Ideal) x0 x1 x2) (k0_pay3 (F := Ideal) x3) (k0_pay4 (F := Ideal)) x4 (ix2 p n)
      = outRow (fun k => x0 (ix2 p k)) (fun j k => x1 (ix2 j k)) (fun j => x2 (ix2 (0 : Fin 1) j))
          (fun n j => x3 (ix2 n j)) (fun n => x4 (ix2 (0 : Fin 1) n)) n := by
  rw [stored_apply]
  unfold outRow logitRow
  refine congrArg (fun l => logSoftmaxRow l n) (funext fun n' => ?_)
  refine congrArg (· + x4 (ix2 (0 : Fin 1) n')) (Finset.sum_congr rfl fun j _ => ?_)
  rw [hidden_apply]
  rfl

end Cert.TernaryMlp.Body

end
-- ==== Proof.Blocks.lean ====
/-
  From the blocks the kernel writes to the whole result array.

  The grid has 64 points; point `t` reads rows 1024·t … 1024·t + 1023 of the input (all 784 columns), the two
  weight matrices and the two bias rows whole, and writes rows 1024·t … 1024·t + 1023 of the result (all ten
  columns). The bias rows reach the kernel as [1, 320] and [1, 10] arrays, recast from the length-320 and
  length-10 arguments before the region starts. So what point `t` writes back is the restriction, to its block
  of rows, of ONE function of the five arguments — the specification's `result` — and since every row of the
  result lies in exactly the block of the point numbered by the row divided by 1024, the array ends holding that
  function everywhere.
-/
import proofs.«156718_j71167608094757_1_alg».proof.Proof.Gen.KernelIdeal.Value
import proofs.«156718_j71167608094757_1_alg».proof.Proof.BodyRows
import Idealize.ShloMosaic.Lib.StableHlo.Run
import Idealize.ShloMosaic.Lib.ValueLayout

noncomputable section

namespace Cert.TernaryMlp.Blocks

open Cert.KernelIdeal Cert.KernelIdeal.Gen Idealize.ShloMosaic Idealize.ShloMosaic.TcCoe Idealize.SL.Sem
open Idealize.ShloMosaic.ValueIdx Cert.TernaryMlp
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The result array as the specification's function of the five arguments as launched. -/
abbrev whole (c : Dev nD) : S65536x10.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4))

/-! ## The printed index maps, decided once over the grid -/

/-- The input's row block moves with the output's; every other block index is 0; the output's row-block index
    is at most 63. -/
theorem idx_facts : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 63 :=
  (by decide +kernel : ∀ t : Fin grid0.N, _)

/-- Every row block of the result is some point's. -/
theorem idx_onto : ∀ q : Fin 64, ∃ t : Fin cfg0.N, win0_5.index t = ![q.val, 0] :=
  (by decide +kernel : ∀ q : Fin 64, ∃ t : Fin grid0.N, win0_5.index t = ![q.val, 0])

/-- The array row that row `p` of point `t`'s block is. -/
def rowOf (t : Fin cfg0.N) (p : Fin 1024) : Fin 65536 :=
  ⟨win0_5.index t (0 : Fin 2) * 1024 + p.val, by
    have h := (idx_facts t).2.2.2.2.2.2.2.2.2.2.2
    have hp := p.isLt
    omega⟩

/-! ## The bias rows as the region finds them -/

theorem bias1_row (c : Dev nD) :
    (V m c main_v0 : S1x320.Idx → EReal) = shapeCast S1x320 (m ((c : Thread nD τ).loc main_arg2)) shapeCasts_S320_S1x320 := by
  dsimp only [V, hostOps0]; after_results; rfl

theorem bias2_row (c : Dev nD) :
    (V m c main_v1 : S1x10.Idx → EReal) = shapeCast S1x10 (m ((c : Thread nD τ).loc main_arg4)) shapeCasts_S10_S1x10 := by
  dsimp only [V, hostOps0]; after_results; rfl

/-! ## The input blocks at a point, read off the arguments -/

abbrev xblk (c : Dev nD) (t : Fin cfg0.N) : FVec Ideal S1024x784 .f32 := iblk m c 0 t
abbrev w1blk (c : Dev nD) (t : Fin cfg0.N) : FVec Ideal S320x784 .f32 := iblk m c 1 t
abbrev b1blk (c : Dev nD) (t : Fin cfg0.N) : FVec Ideal S1x320 .f32 := iblk m c 2 t
abbrev w2blk (c : Dev nD) (t : Fin cfg0.N) : FVec Ideal S10x320 .f32 := iblk m c 3 t
abbrev b2blk (c : Dev nD) (t : Fin cfg0.N) : FVec Ideal S1x10 .f32 := iblk m c 4 t

theorem xblk_apply (c : Dev nD) (t : Fin cfg0.N) (p : Fin 1024) (k : Fin 784) :
    xblk m c t (ix2 p k) = (m ((c : Thread nD τ).loc main_arg0)) (ix2 (rowOf t p) k) := by
  show V m c main_arg0 (((cfg0.win 0).blk t).view.emb (ix2 p k)) = _
  rw [V_main_arg0]
  refine congrArg (m ((c : Thread nD τ).loc main_arg0)) (funext fun a => Fin.ext ?_)
  obtain ⟨e0, e1, -⟩ := idx_facts t
  match a with
  | ⟨0, _⟩ => show win0_0.index t (0 : Fin 2) * 1024 + 1 * p.val = win0_5.index t (0 : Fin 2) * 1024 + p.val; omega
  | ⟨1, _⟩ => show win0_0.index t (1 : Fin 2) * 784 + 1 * k.val = k.val; omega

theorem w1blk_apply (c : Dev nD) (t : Fin cfg0.N) (j : Fin 320) (k : Fin 784) :
    w1blk m c t (ix2 j k) = (m ((c : Thread nD τ).loc main_arg1)) (ix2 j k) := by
  show V m c main_arg1 (((cfg0.win 1).blk t).view.emb (ix2 j k)) = _
  rw [V_main_arg1]
  refine congrArg (m ((c : Thread nD τ).loc main_arg1)) (funext fun a => Fin.ext ?_)
  obtain ⟨-, -, e0, e1, -⟩ := idx_facts t
  match a with
  | ⟨0, _⟩ => show win0_1.index t (0 : Fin 2) * 320 + 1 * j.val = j.val; omega
  | ⟨1, _⟩ => show win0_1.index t (1 : Fin 2) * 784 + 1 * k.val = k.val; omega

theorem b1blk_apply (c : Dev nD) (t : Fin cfg0.N) (j : Fin 320) :
    b1blk m c t (ix2 (0 : Fin 1) j) = (m ((c : Thread nD τ).loc main_arg2)) (ix1 j) := by
  show V m c main_v0 (((cfg0.win 2).blk t).view.emb (ix2 (0 : Fin 1) j)) = _
  have e : ((cfg0.win 2).blk t).view.emb (ix2 (0 : Fin 1) j) = ix2 (0 : Fin 1) j := funext fun a => Fin.ext (by
    obtain ⟨-, -, -, -, e0, e1, -⟩ := idx_facts t
    match a with
    | ⟨0, _⟩ => show win0_2.index t (0 : Fin 2) * 1 + 1 * 0 = 0; omega
    | ⟨1, _⟩ => show win0_2.index t (1 : Fin 2) * 320 + 1 * j.val = j.val; omega)
  rw [e, bias1_row]
  exact shapeCast_a_1a_apply _ _ 0 j

theorem w2blk_apply (c : Dev nD) (t : Fin cfg0.N) (n : Fin 10) (j : Fin 320) :
    w2blk m c t (ix2 n j) = (m ((c : Thread nD τ).loc main_arg3)) (ix2 n j) := by
  show V m c main_arg3 (((cfg0.win 3).blk t).view.emb (ix2 n j)) = _
  rw [V_main_arg3]
  refine congrArg (m ((c : Thread nD τ).loc main_arg3)) (funext fun a => Fin.ext ?_)
  obtain ⟨-, -, -, -, -, -, e0, e1, -⟩ := idx_facts t
  match a with
  | ⟨0, _⟩ => show win0_3.index t (0 : Fin 2) * 10 + 1 * n.val = n.val; omega
  | ⟨1, _⟩ => show win0_3.index t (1 : Fin 2) * 320 + 1 * j.val = j.val; omega

theorem b2blk_apply (c : Dev nD) (t : Fin cfg0.N) (n : Fin 10) :
    b2blk m c t (ix2 (0 : Fin 1) n) = (m ((c : Thread nD τ).loc main_arg4)) (ix1 n) := by
  show V m c main_v1 (((cfg0.win 4).blk t).view.emb (ix2 (0 : Fin 1) n)) = _
  have e : ((cfg0.win 4).blk t).view.emb (ix2 (0 : Fin 1) n) = ix2 (0 : Fin 1) n := funext fun a => Fin.ext (by
    obtain ⟨-, -, -, -, -, -, -, -, e0, e1, -⟩ := idx_facts t
    match a with
    | ⟨0, _⟩ => show win0_4.index t (0 : Fin 2) * 1 + 1 * 0 = 0; omega
    | ⟨1, _⟩ => show win0_4.index t (1 : Fin 2) * 10 + 1 * n.val = n.val; omega)
  rw [e, bias2_row]
  exact shapeCast_a_1a_apply _ _ 0 n

/-- Where entry (p, n) of point `t`'s output block lies in the result array. -/
theorem out_emb (t : Fin cfg0.N) (p : Fin 1024) (n : Fin 10) :
    ((cfg0.win 5).blk t).view.emb (ix2 p n) = ix2 (rowOf t p) n := funext fun a => Fin.ext (by
  obtain ⟨-, -, -, -, -, -, -, -, -, -, e1, -⟩ := idx_facts t
  match a with
  | ⟨0, _⟩ => show win0_5.index t (0 : Fin 2) * 1024 + 1 * p.val = win0_5.index t (0 : Fin 2) * 1024 + p.val; omega
  | ⟨1, _⟩ => show win0_5.index t (1 : Fin 2) * 10 + 1 * n.val = n.val; omega)

/-! ## What a point writes back, and the array after the run -/

/-- Point `t` writes back block `t` of `whole`. -/
theorem flushed_eq (c : Dev nD) (t : Fin cfg0.N) :
    (dats m 0 c).flushed 5 t = ((cfg0.win 5).blk t).view.read (Elt Ideal) (whole m c) := by
  rw [Cert.KernelIdeal.Value.flushed5]
  unfold out0_5
  rw [View.canon_unit_zero origin]
  simp only [View.ld_unit_zero (S := S1024x784) origin, View.ld_unit_zero (S := S320x784) origin,
    View.ld_unit_zero (S := S1x320) origin, View.ld_unit_zero (S := S10x320) origin, View.ld_unit_zero (S := S1x10) origin]
  funext y
  obtain ⟨p, n, rfl⟩ : ∃ (p : Fin 1024) (n : Fin 10), y = ix2 p n := ⟨y 0, y 1, eq_ix2 y⟩
  show k0_pay1 (F := Ideal) (k0_pay2 (F := Ideal) (xblk m c t) (w1blk m c t) (b1blk m c t)) (k0_pay3 (F := Ideal) (w2blk m c t))
      (k0_pay4 (F := Ideal)) (b2blk m c t) (ix2 p n) = whole m c (((cfg0.win 5).blk t).view.emb (ix2 p n))
  rw [Body.body_apply, out_emb]
  show _ = outRow (fun k => (m ((c : Thread nD τ).loc main_arg0)) (ix2 (rowOf t p) k)) (fun j k => (m ((c : Thread nD τ).loc main_arg1)) (ix2 j k))
      (fun j => (m ((c : Thread nD τ).loc main_arg2)) (ix1 j)) (fun n j => (m ((c : Thread nD τ).loc main_arg3)) (ix2 n j))
      (fun n => (m ((c : Thread nD τ).loc main_arg4)) (ix1 n)) n
  simp only [xblk_apply, w1blk_apply, b1blk_apply, w2blk_apply, b2blk_apply]

/-- An index of the result is in point `t`'s block iff each coordinate is in the block's range on its axis. -/
theorem mem_blk (t : Fin cfg0.N) (i : S65536x10.Idx) :
    i ∈ ((cfg0.win 5).blk t).view.set ↔ ∀ a : Fin 2, win0_5.index t a * S1024x10.size a ≤ (i a).val
      ∧ (i a).val < win0_5.index t a * S1024x10.size a + S1024x10.size a := by
  show i ∈ ((View.whole main_v2).slice (win0_5.rect t)).set ↔ _
  rw [View.set_slice_whole, Rect.mem_set_unit]
  exact Iff.rfl

/-- Every index of the result is in the block of the point numbered by its row divided by 1024. -/
theorem cover (i : S65536x10.Idx) :
    ∃ t : Fin cfg0.N, (cfg0.win 5).flush t = true ∧ i ∈ ((cfg0.win 5).blk t).view.set := by
  have hi0 : (i 0).val < 65536 := (i 0).isLt
  have hi1 : (i 1).val < 10 := (i 1).isLt
  obtain ⟨t, ht⟩ := idx_onto ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 10 ≤ (i 1).val ∧ (i 1).val < win0_5.index t (1 : Fin 2) * 10 + 10; omega

/-- The result array after the run is `whole`. -/
theorem final (c : Dev nD) : (dats m 0 c).arrAt 5 cfg0.N = whole m c :=
  (dats m 0 c).arrAt_eq_of_cover 5 (whole m c) (fun t _ => flushed_eq m c t) cover

/-- The kernel's run: every weakly fair execution ends with the result array at `whole` and the five arguments
    unchanged. -/
theorem run : θ_run defs (onTc (τ := τ) (main (F := Ideal))) ⟨m, fun _ => 0, ρ⟩ fun r => ∀ c : Dev nD,
      r.2.mem ((c : Thread nD τ).loc main_v2) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.TernaryMlp.Blocks

end
-- ==== Proof.RefRows.lean ====
/-
  The reference, read one entry at a time.

  The reference quantizes the two weight matrices whole, multiplies the whole input by the transposed quantized
  first-layer weights, adds the first bias, quantizes, multiplies by the transposed quantized second-layer weights,
  adds the second bias, and takes the log-softmax along each row. Read at row `r` and position `n` that is the
  specification's row function of row `r` of the input: a product with a transposed matrix contracts the two
  second axes, a bias broadcast over the rows reads the bias at the column, the row maximum folded from minus
  infinity and then once more compared with minus infinity is the same fold, and the sum of the shifted
  exponentials starts from the zero pattern, which is the real 0.
-/
import proofs.«156718_j71167608094757_1_alg».proof.Proof.RefRead
import proofs.«156718_j71167608094757_1_alg».proof.Proof.Spec
import Idealize.ShloMosaic.PureOps.Ideal.Laws
import Idealize.ShloMosaic.PureOps.Reduce
import Idealize.ShloMosaic.Lib.ValueIdx

noncomputable section

namespace Cert.TernaryMlp.Ref

open Cert.ReferenceIdeal Cert.ReferenceIdeal.Gen Cert.ReferenceIdeal.ReadP Idealize.ShloMosaic Idealize.ShloMosaic.ValueIdx Cert.TernaryMlp
open scoped BigOperators

/-! ## The printed index maps at coordinates -/

theorem tr1 (k : Fin 784) (j : Fin 320) : idx_main_v8 (ix2 k j) = ix2 j k :=
  funext fun a => Fin.ext (by match a with | ⟨0, _⟩ => rfl | ⟨1, _⟩ => rfl)
theorem l9 (r : Fin 65536) (j : Fin 320) (k : Fin 784) : lidx_main_v9 (ix2 r j) k = ix2 r k :=
  funext fun a => Fin.ext (by match a with | ⟨0, _⟩ => rfl | ⟨1, _⟩ => rfl)
theorem r9 (r : Fin 65536) (j : Fin 320) (k : Fin 784) : ridx_main_v9 (ix2 r j) k = ix2 k j :=
  funext fun a => Fin.ext (by match a with | ⟨0, _⟩ => rfl | ⟨1, _⟩ => rfl)
theorem b11 (r : Fin 65536) (j : Fin 320) : idx_main_v10 (idx_main_v11 (ix2 r j)) = ix1 j :=
  funext fun a => Fin.ext (by match a with | ⟨0, _⟩ => rfl)
theorem tr2 (j : Fin 320) (n : Fin 10) : idx_main_v28 (ix2 j n) = ix2 n j :=
  funext fun a => Fin.ext (by match a with | ⟨0, _⟩ => rfl | ⟨1, _⟩ => rfl)
theorem l29 (r : Fin 65536) (n : Fin 10) (j : Fin 320) : lidx_main_v29 (ix2 r n) j = ix2 r j :=
  funext fun a => Fin.ext (by match a with | ⟨0, _⟩ => rfl | ⟨1, _⟩ => rfl)
theorem r29 (r : Fin 65536) (n : Fin 10) (j : Fin 320) : ridx_main_v29 (ix2 r n) j = ix2 j n :=
  funext fun a => Fin.ext (by match a with | ⟨0, _⟩ => rfl | ⟨1, _⟩ => rfl)
theorem b31 (r : Fin 65536) (n : Fin 10) : idx_main_v30 (idx_main_v31 (ix2 r n)) = ix1 n :=
  funext fun a => Fin.ext (by match a with | ⟨0, _⟩ => rfl)
theorem c4 (r : Fin 65536) (n : Fin 10) : idx_main_call8_v3 (idx_main_call8_v4 (ix2 r n)) = ix1 r :=
  funext fun a => Fin.ext (by match a with | ⟨0, _⟩ => rfl)
theorem c10 (r : Fin 65536) (n : Fin 10) : idx_main_call8_v8 (idx_main_call8_v10 (ix2 r n)) = ix1 r :=
  funext fun a => Fin.ext (by match a with | ⟨0, _⟩ => rfl)
theorem s7 (r : Fin 65536) (n : Fin 10) : idx_main_call8_v7 (ix1 r) n = ix2 r n :=
  funext fun a => Fin.ext (by match a with | ⟨0, _⟩ => rfl | ⟨1, _⟩ => rfl)

/-! ## The stages -/

/-- A quantized first-layer weight. -/
theorem q1_apply (x1 : (⟨S320x784, .f32⟩ : BufTy).Contents (Elt Ideal)) (j : Fin 320) (k : Fin 784) :
    val_main_v7 (F := Ideal) x1 (ix2 j k) = qw (x1 (ix2 j k)) := by
  simp only [val_main_v7_apply, val_main_v6_apply, val_main_v5_apply, val_main_v4_apply, val_main_v3_apply,
    val_main_v2_apply, val_main_v1_apply, val_main_v0_apply, val_main_call0_v4_apply, val_main_call0_v3_apply,
    val_main_call0_v2_apply, val_main_call0_v1_apply, val_main_call0_v0_apply, val_main_cst_apply,
    val_main_cst_0_apply, val_main_cst_1_apply, val_main_cst_2_apply, val_main_cst_3_apply, val_main_cst_4_apply,
    val_main_cst_5_apply, val_main_call1_v0_apply, val_main_call1_v1_apply, val_main_call2_v0_apply]
  rfl

/-- A quantized second-layer weight. -/
theorem q2_apply (x3 : (⟨S10x320, .f32⟩ : BufTy).Contents (Elt Ideal)) (n : Fin 10) (j : Fin 320) :
    val_main_v27 (F := Ideal) x3 (ix2 n j) = qw (x3 (ix2 n j)) := by
  simp only [val_main_v27_apply, val_main_v26_apply, val_main_v25_apply, val_main_v24_apply, val_main_v23_apply,
    val_main_v22_apply, val_main_v21_apply, val_main_v20_apply, val_main_call5_v4_apply, val_main_call5_v3_apply,
    val_main_call5_v2_apply, val_main_call5_v1_apply, val_main_call5_v0_apply, val_main_cst_11_apply,
    val_main_cst_12_apply, val_main_cst_13_apply, val_main_cst_14_apply, val_main_cst_15_apply, val_main_cst_16_apply,
    val_main_cst_17_apply, val_main_call6_v0_apply, val_main_call6_v1_apply, val_main_call7_v0_apply]
  rfl

/-- The hidden entry at (r, j). -/
theorem hidden_apply (x0 : (⟨S65536x784, .f32⟩ : BufTy).Contents (Elt Ideal)) (x1 : (⟨S320x784, .f32⟩ : BufTy).Contents (Elt Ideal)) (x2 : (⟨S320, .f32⟩ : BufTy).Contents (Elt Ideal)) (r : Fin 65536) (j : Fin 320) :
    val_main_v19 (F := Ideal) x0 x1 x2 (ix2 r j)
      = hiddenRow (fun k => x0 (ix2 r k)) (fun j k => x1 (ix2 j k)) (fun j => x2 (ix1 j)) j := by
  have hsum : val_main_v12 (F := Ideal) x0 x1 x2 (ix2 r j)
      = (∑ k : Fin 784, x0 (ix2 r k) * qw (x1 (ix2 j k))) + x2 (ix1 j) := by
    rw [val_main_v12_apply, val_main_v9_apply, val_main_v11_apply, val_main_v10_apply, b11]
    refine congrArg (· + x2 (ix1 j)) (Finset.sum_congr rfl fun k _ => ?_)
    rw [l9, r9, val_main_v8_apply, tr1, q1_apply]
  simp only [val_main_v19_apply, val_main_v18_apply, val_main_v17_apply, val_main_v16_apply, val_main_v15_apply,
    val_main_v14_apply, val_main_v13_apply, val_main_cst_6_apply, val_main_cst_7_apply, val_main_cst_8_apply,
    val_main_cst_9_apply, val_main_cst_10_apply, val_main_call3_v0_apply, val_main_call3_v1_apply,
    val_main_call4_v0_apply, hsum]
  rfl

/-- The logit at (r, n). -/
theorem logit_apply (x0 : (⟨S65536x784, .f32⟩ : BufTy).Contents (Elt Ideal)) (x1 : (⟨S320x784, .f32⟩ : BufTy).Contents (Elt Ideal)) (x2 : (⟨S320, .f32⟩ : BufTy).Contents (Elt Ideal)) (x3 : (⟨S10x320, .f32⟩ : BufTy).Contents (Elt Ideal)) (x4 : (⟨S10, .f32⟩ : BufTy).Contents (Elt Ideal)) (r : Fin 65536) (n : Fin 10) :
    val_main_v32 (F := Ideal) x0 x1 x2 x3 x4 (ix2 r n)
      = logitRow (hiddenRow (fun k => x0 (ix2 r k)) (fun j k => x1 (ix2 j k)) (fun j => x2 (ix1 j)))
          (fun n j => x3 (ix2 n j)) (fun n => x4 (ix1 n)) n := by
  rw [val_main_v32_apply, val_main_v29_apply, val_main_v31_apply, val_main_v30_apply, b31]
  unfold logitRow
  refine congrArg (· + x4 (ix1 n)) (Finset.sum_congr rfl fun j _ => ?_)
  rw [l29, r29, hidden_apply, val_main_v28_apply, tr2, q2_apply]

/-- The row maximum as the reference takes it: the fold from minus infinity, compared once more with it. -/
theorem rowmax_apply (x0 : (⟨S65536x784, .f32⟩ : BufTy).Contents (Elt Ideal)) (x1 : (⟨S320x784, .f32⟩ : BufTy).Contents (Elt Ideal)) (x2 : (⟨S320, .f32⟩ : BufTy).Contents (Elt Ideal)) (x3 : (⟨S10x320, .f32⟩ : BufTy).Contents (Elt Ideal)) (x4 : (⟨S10, .f32⟩ : BufTy).Contents (Elt Ideal)) (r : Fin 65536) :
    val_main_call8_v2 (F := Ideal) x0 x1 x2 x3 x4 (ix1 r)
      = rowMax (fun n => val_main_v32 (F := Ideal) x0 x1 x2 x3 x4 (ix2 r n)) := by
  rw [val_main_call8_v2_apply, val_main_call8_v1_apply, val_main_call8_cst_0_apply]
  unfold val_main_call8_v0
  generalize val_main_v32 (F := Ideal) x0 x1 x2 x3 x4 = y
  rw [Host.reduce_eq_fold_single (FloatOps.maximumf (F := Ideal) (φ := .f32)) y (val_main_call8_cst (F := Ideal)) reducesTo_S65536x10_S65536_d1
    (by decide) h_S_ (ix1 r)]
  have e : (y ∘ (by decide : S65536x10.Reduces [1] S65536).lift (ix1 r)) = fun n => y (ix2 r n) :=
    funext fun n => congrArg y (funext fun a => Fin.ext (by
      match a with
      | ⟨0, _⟩ => rfl
      | ⟨1, _⟩ => rfl))
  rw [e]
  exact max_init_rowMax _

/-- The reference's result at (r, n) is the specification's row function of row `r` of the input. -/
theorem result_apply (x0 : (⟨S65536x784, .f32⟩ : BufTy).Contents (Elt Ideal)) (x1 : (⟨S320x784, .f32⟩ : BufTy).Contents (Elt Ideal)) (x2 : (⟨S320, .f32⟩ : BufTy).Contents (Elt Ideal)) (x3 : (⟨S10x320, .f32⟩ : BufTy).Contents (Elt Ideal)) (x4 : (⟨S10, .f32⟩ : BufTy).Contents (Elt Ideal)) (r : Fin 65536) (n : Fin 10) :
    val_main_v33 (F := Ideal) x0 x1 x2 x3 x4 (ix2 r n)
      = outRow (fun k => x0 (ix2 r k)) (fun j k => x1 (ix2 j k)) (fun j => x2 (ix1 j))
          (fun n j => x3 (ix2 n j)) (fun n => x4 (ix1 n)) n := by
  have hshift : ∀ n' : Fin 10, val_main_call8_v5 (F := Ideal) x0 x1 x2 x3 x4 (ix2 r n')
      = val_main_v32 (F := Ideal) x0 x1 x2 x3 x4 (ix2 r n')
          - rowMax (fun m => val_main_v32 (F := Ideal) x0 x1 x2 x3 x4 (ix2 r m)) := fun n' => by
    rw [val_main_call8_v5_apply, val_main_call8_v4_apply, val_main_call8_v3_apply, c4, rowmax_apply]
    rfl
  rw [val_main_v33_apply, val_main_call8_v10_apply, val_main_call8_v9_apply, val_main_call8_v8_apply, c10,
    val_main_call8_v7_apply, val_main_call8_cst_1_apply]
  simp only [s7, val_main_call8_v6_apply, hshift, logit_apply]
  unfold outRow logSoftmaxRow
  simp only [Ideal.subf_def, Ideal.hostUnary_log_def, Ideal.hostUnary_exp_def, Ideal.ofBits_def, Ideal.ofBits_zero_f32,
    zero_add]

/-- The reference's result array is the specification's `result` of the argument arrays. -/
theorem result_eq (x0 : (⟨S65536x784, .f32⟩ : BufTy).Contents (Elt Ideal)) (x1 : (⟨S320x784, .f32⟩ : BufTy).Contents (Elt Ideal)) (x2 : (⟨S320, .f32⟩ : BufTy).Contents (Elt Ideal)) (x3 : (⟨S10x320, .f32⟩ : BufTy).Contents (Elt Ideal)) (x4 : (⟨S10, .f32⟩ : BufTy).Contents (Elt Ideal)) :
    val_main_v33 (F := Ideal) x0 x1 x2 x3 x4 = result x0 x1 x2 x3 x4 := by
  funext i
  obtain ⟨r, n, rfl⟩ : ∃ (r : Fin 65536) (n : Fin 10), i = ix2 r n := ⟨i 0, i 1, eq_ix2 i⟩
  exact result_apply x0 x1 x2 x3 x4 r n

end Cert.TernaryMlp.Ref

end
-- ==== Proof.lean ====
/-
  A two-layer perceptron with ternary weights and a ternary hidden activation, followed by a row-wise
  log-softmax, computed by one kernel over 64 blocks of 1024 batch rows, against the same computation written
  with whole-array operations.

  Over the extended reals both programs compute, for every batch row, the same function of that row and of the
  four parameter arrays (`Cert.TernaryMlp.outRow`, Proof/Spec.lean): each weight is clamped to [-1, 1] and
  quantized to {-1, 0, 1}; the row is contracted against the quantized first-layer weights, the first bias is
  added and the result quantized; that hidden row is contracted against the quantized second-layer weights and
  the second bias added; the output is the logits shifted by their maximum, minus the logarithm of the sum of
  the shifted logits' exponentials. The kernel's narrowing of its matrix operands to a shorter float format is
  the identity on the extended reals; its products contract the second axes of both operands, the reference's
  contract against a transposed matrix, and both are the same sum; the reference takes the row maximum once more
  against minus infinity, which the fold from minus infinity already dominates. No law that needs finiteness
  is used, so the precondition is never opened.

  Proof/BodyOps.lean and Proof/BodyRows.lean read the kernel's stored value at an entry; Proof/Blocks.lean
  carries that from the 64 row blocks to the whole result array; Proof/RefRows.lean reads the reference's result
  at an entry; here the two runs are set side by side.
-/
import proofs.«156718_j71167608094757_1_alg».proof.Defs
import proofs.«156718_j71167608094757_1_alg».proof.Proof.Gen.Kernel
import proofs.«156718_j71167608094757_1_alg».proof.Proof.Gen.Kernel.Frame
import proofs.«156718_j71167608094757_1_alg».proof.Proof.Gen.KernelIdeal
import proofs.«156718_j71167608094757_1_alg».proof.Proof.Gen.KernelIdeal.Frame
import proofs.«156718_j71167608094757_1_alg».proof.Proof.Gen.KernelIdeal.Value
import proofs.«156718_j71167608094757_1_alg».proof.Proof.Gen.ReferenceIdeal
import proofs.«156718_j71167608094757_1_alg».proof.Proof.Gen.Pre_finite_inputs
import proofs.«156718_j71167608094757_1_alg».proof.Proof.Blocks
import proofs.«156718_j71167608094757_1_alg».proof.Proof.RefRows
import Idealize.ShloMosaic.Adequacy
import Idealize.ShloMosaic.Init

noncomputable section

namespace Cert.Proof

open Idealize.ShloMosaic Idealize.ShloMosaic.TcCoe Idealize.SL.Sem

/-- The kernel at the word level terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealized kernel is the kernel's own text read over the extended reals: nothing was rewritten. -/
theorem preserves : Cert.preserves_Kernel_KernelIdeal := trivial

/-- From memories that agree on the five arguments, both programs end with the result array holding the
    specification's function of those arguments. -/
theorem algebraic : Cert.algebraic_KernelIdeal_ReferenceIdeal := by
  intro m ρ m' ρ' _ hagree
  refine ⟨fun c => Cert.TernaryMlp.Blocks.whole m c, Cert.TernaryMlp.Blocks.run m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4⟩ := hagree c
  rw [Cert.ReferenceIdeal.ReadP.val_main_v33_eq, Cert.TernaryMlp.Ref.result_eq, h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
